-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S262144x256 .f32) (main_arg1 : FVec F S512x256 .f32) (main_arg2 : FVec F S512 .f32) (main_arg3 : FVec F S256x512 .f32) (main_arg4 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S262144x256 : Shape := ⟨2, ![262144, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S_ : Shape := ⟨0, ![]⟩
abbrev S1x1 : Shape := ⟨2, ![1, 1]⟩
abbrev S1x512 : Shape := ⟨2, ![1, 512]⟩
abbrev S1x256 : Shape := ⟨2, ![1, 256]⟩
abbrev S4096x256 : Shape := ⟨2, ![4096, 256]⟩
abbrev S4096x512 : Shape := ⟨2, ![4096, 512]⟩

abbrev nBuf : Space → Nat
  | .hbm => 54
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S512x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S256x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S256x512, .f32⟩
  | .hbm, ⟨41, _⟩ => ⟨S256x512, .f32⟩
  | .hbm, ⟨42, _⟩ => ⟨S_, .f32⟩
  | .hbm, ⟨43, _⟩ => ⟨S256x512, .f32⟩
  | .hbm, ⟨44, _⟩ => ⟨S256x512, .f32⟩
  | .hbm, ⟨45, _⟩ => ⟨S256x512, .f32⟩
  | .hbm, ⟨46, _⟩ => ⟨S256x512, .bf16⟩
  | .hbm, ⟨47, _⟩ => ⟨S512x256, .f32⟩
  | .hbm, ⟨48, _⟩ => ⟨S512x256, .bf16⟩
  | .hbm, ⟨49, _⟩ => ⟨S1x1, .f32⟩
  | .hbm, ⟨50, _⟩ => ⟨S1x1, .f32⟩
  | .hbm, ⟨51, _⟩ => ⟨S1x512, .f32⟩
  | .hbm, ⟨52, _⟩ => ⟨S1x256, .f32⟩
  | .hbm, ⟨53, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S1x1, .f32⟩
  | .local _ .vmem, ⟨4, _⟩ => ⟨S1x512, .f32⟩
  | .local _ .vmem, ⟨5, _⟩ => ⟨S512x256, .bf16⟩
  | .local _ .vmem, ⟨6, _⟩ => ⟨S1x1, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_cst_7 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_8 : Ref sig .tc := ⟨.hbm, 37, rfl⟩
abbrev main_c_9 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  reducesTo_S256x512_S_d0_1 : S256x512.ReducesTo [0, 1] S_
  bcast_S_S256x512 : S_.BroadcastsInDim S256x512 (![] : Fin 0 → Fin S256x512.rank)
  transposes_S512x256_S256x512_1_0 : S512x256.Transposes [1, 0] S256x512
  bitsLt_bf16_f32 : FTy.bits .bf16 < FTy.bits .f32
  transposes_S256x512_S512x256_1_0 : S256x512.Transposes [1, 0] S512x256
  shapeCasts_S_S1x1 : S_.ShapeCasts S1x1
  shapeCasts_S512_S1x512 : S512.ShapeCasts S1x512
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x512 : S1x1.Broadcasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x1_S4096x256 : S1x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S4096x256_S256x512_S4096x512_1_0_0_1_n_n_wf : DotDims.WF S4096x256 S256x512 S4096x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S262144x256.size a
  hwx0_7 : ∀ i : grid0.Coords, EltTy.bits .f32 = 32 ∨ (Rect.block (s := S262144x256) S4096x256.size (cc0_transform_7 i) (hinb0_7 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x256 : Shape := ⟨2, ![262144, 256]⟩
abbrev S512x256 : Shape := ⟨2, ![512, 256]⟩
abbrev S512 : Shape := ⟨1, ![512]⟩
abbrev S256x512 : Shape := ⟨2, ![256, 512]⟩
abbrev S256 : Shape := ⟨1, ![256]⟩
abbrev S_ : Shape := ⟨0, ![]⟩
abbrev S262144x512 : Shape := ⟨2, ![262144, 512]⟩
abbrev S1x512 : Shape := ⟨2, ![1, 512]⟩
abbrev S1x256 : Shape := ⟨2, ![1, 256]⟩

abbrev nBuf : Space → Nat
  | .hbm => 66
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S512x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S256x512, .f32⟩
  | .hbm, ⟨30, _⟩ => ⟨S262144x512, .f32⟩
  | .hbm, ⟨31, _⟩ => ⟨S1x512, .f32⟩
  | .hbm, ⟨32, _⟩ => ⟨S262144x512, .f32⟩
  | .hbm, ⟨33, _⟩ => ⟨S262144x512, .f32⟩
  | .hbm, ⟨34, _⟩ => ⟨S_, .f32⟩
  | .hbm, ⟨35, _⟩ => ⟨S262144x512, .f32⟩
  | .hbm, ⟨36, _⟩ => ⟨S262144x512, .f32⟩
  | .hbm, ⟨37, _⟩ => ⟨S256x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S256x512, .f32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S256x512, .f32⟩
  | .hbm, ⟨53, _⟩ => ⟨S256x512, .f32⟩
  | .hbm, ⟨54, _⟩ => ⟨S_, .f32⟩
  | .hbm, ⟨55, _⟩ => ⟨S256x512, .f32⟩
  | .hbm, ⟨56, _⟩ => ⟨S256x512, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S256x512, .f32⟩
  | .hbm, ⟨61, _⟩ => ⟨S512x256, .f32⟩
  | .hbm, ⟨62, _⟩ => ⟨S262144x256, .f32⟩
  | .hbm, ⟨63, _⟩ => ⟨S1x256, .f32⟩
  | .hbm, ⟨64, _⟩ => ⟨S262144x256, .f32⟩
  | .hbm, ⟨65, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_cst : Ref sig .tc := ⟨.hbm, 34, rfl⟩
abbrev main_call2_v0 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_c_9 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩

abbrev nD : Nat := 1
abbrev τ : Topo := Topo.v7x

variable {F : FTy → Type} [FloatOps F]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  reducesTo_S256x512_S_d0_1 : S256x512.ReducesTo [0, 1] S_
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  dot_S262144x256_S256x512_S262144x512_1_0_0_1_n_n_wf : DotDims.WF S262144x256 S256x512 S262144x512 [1] [0] [0] [1] [] []
  dot_S262144x512_S512x256_S262144x256_1_0_0_1_n_n_wf : DotDims.WF S262144x512 S512x256 S262144x256 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf

class Facts : Prop extends Facts₀ where

variable [Facts]
-- ==== Proof.LibERealCoe.lean ====
/-
  Casting real numbers into the extended reals commutes with finite sums and with the lattice operations, and an
  extended real squeezed between two reals is itself a real. General lemmas: nothing here mentions a program.
-/
import Mathlib.Data.EReal.Operations
import Mathlib.Algebra.BigOperators.Ring.Finset

namespace ERealCoe

/-- An extended real that is (the cast of) a real number. -/
def IsReal (a : EReal) : Prop := ∃ r : ℝ, a = (r : EReal)

theorem isReal_coe (r : ℝ) : IsReal (r : EReal) := ⟨r, rfl⟩

theorem isReal_zero : IsReal 0 := ⟨0, rfl⟩

theorem isReal_iff {a : EReal} : IsReal a ↔ a ≠ ⊤ ∧ a ≠ ⊥ := by
  constructor
  · rintro ⟨r, rfl⟩; exact ⟨EReal.coe_ne_top r, EReal.coe_ne_bot r⟩
  · rintro ⟨h1, h2⟩; exact ⟨a.toReal, (EReal.coe_toReal h1 h2).symm⟩

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The cast is monotone, so it commutes with `max` and `min`. -/
theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  obtain ⟨r, rfl⟩ := ha; obtain ⟨t, rfl⟩ := hb; exact ⟨Max.max r t, (coe_max r t).symm⟩

/-- A finite sum of reals, taken in the extended reals, is a real. -/
theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- Whatever `x` is, clamping it between two reals gives a real: `min hi (max lo x)` lies in `[min hi lo, hi]`. -/
theorem isReal_clamp (lo hi : ℝ) (x : EReal) : IsReal (min (hi : EReal) (max (lo : EReal) x)) := by
  rw [isReal_iff]
  constructor
  · exact ne_top_of_le_ne_top (EReal.coe_ne_top hi) (min_le_left _ _)
  · intro h
    have h1 : ((min hi lo : ℝ) : EReal) ≤ min (hi : EReal) (max (lo : EReal) x) := by
      rw [coe_min]; exact min_le_min le_rfl (le_max_left _ _)
    rw [h] at h1
    exact EReal.coe_ne_bot _ (le_bot_iff.mp h1)

end ERealCoe
-- ==== Proof.FiniteInputs.lean ====
/-
  What the precondition says, decoded. `finite_inputs` is the conjunction, over the five argument arrays, of
  `all (|a| < +∞)`. On the extended reals `|a| = max a (−a)`, and `max a (−a) < ⊤` excludes both infinities, so every
  entry of every argument array is a real number.
-/
import proofs.«422642_j8418135900727_3_alg».proof.Pre_finite_inputs
import proofs.«422642_j8418135900727_3_alg».proof.Proof.LibERealCoe
import Idealize.ShloMosaic.PureOps.Ideal
import Idealize.ShloMosaic.Lib.ReduceAll

noncomputable section

namespace Cert.FiniteInputs

open Idealize.ShloMosaic ERealCoe Cert.Pre_finite_inputs

/-- The all-ones-exponent, zero-fraction pattern denotes `+∞`. -/
theorem ofBits_inf : Ideal.ofBits .f32 0x7F800000#32 = (⊤ : EReal) := by
  simp [Ideal.ofBits, Ideal.ieee]

/-- One element of the test: `|x| < +∞` on the extended reals leaves only the reals. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [ofBits_inf] at h
  simp only [Ideal.cmp] at h
  have hlt : max x (-x) < ⊤ := by
    by_contra hc
    simp [hc] at h
  rw [isReal_iff]
  constructor
  · rintro rfl; simp at hlt
  · rintro rfl; simp at hlt

instance : Subsingleton S_.Idx := ⟨fun a b => funext fun d => d.elim0⟩

variable [Facts]

/-- The precondition, read: every entry of `x`, `W1`, `b1`, `W2` and `b2` is a real. -/
theorem real_of_pre (a0 : FVec Ideal S262144x256 .f32) (a1 : FVec Ideal S512x256 .f32) (a2 : FVec Ideal S512 .f32)
    (a3 : FVec Ideal S256x512 .f32) (a4 : FVec Ideal S256 .f32)
    (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h (fun a => a.elim0)
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => isReal_of_abs_lt_inf (a0 i) (Host.reduce_andi_all _ _ _ _ _ h0' i),
    fun i => isReal_of_abs_lt_inf (a1 i) (Host.reduce_andi_all _ _ _ _ _ h1 i),
    fun i => isReal_of_abs_lt_inf (a2 i) (Host.reduce_andi_all _ _ _ _ _ h2 i),
    fun i => isReal_of_abs_lt_inf (a3 i) (Host.reduce_andi_all _ _ _ _ _ h3 i),
    fun i => isReal_of_abs_lt_inf (a4 i) (Host.reduce_andi_all _ _ _ _ _ h4 i)⟩

end Cert.FiniteInputs

end
-- ==== Proof.BodyAtIndex.lean ====
/-
  The kernel body's one stored value, read at an index, on the extended reals. For row `p` of the block and output
  column `j`:
      out[p, j] = (∑ₖ max ((∑ₗ x[p, l] · q1ᵀ[l, k]) · s1 + b1[k]) 0 · q2ᵀ[k, j]) · s2 + b2[j]
  — two contractions into zero accumulators (plain sums here), each followed by the scalar scale and the row bias,
  with the rectifier between them. The changes of float format are the identity on the extended reals, the shape
  casts are casts to the same shape, and the broadcasts read a [1,1] or [1,n] operand at its one row.
-/
import proofs.«422642_j8418135900727_3_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.BodyAtIndex

open Idealize.ShloMosaic Idealize.ShloMosaic.ValueIdx Cert.KernelIdeal Cert.KernelIdeal.Gen

/-! ## The first contraction, [4096,256] × [256,512] over the shared axis of extent 256 -/

theorem lhs1_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl
theorem lhs1_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q
theorem rhs1_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q
theorem rhs1_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- Into a zero accumulator the first product is the plain sum over the shared axis. -/
theorem contract1_at (a : FVec Ideal S4096x256 .bf16) (b : FVec Ideal S256x512 .bf16) (p : Fin 4096) (k : Fin 512) :
    matmul dot_S4096x256_S256x512_S4096x512_1_0_0_1_n_n none a b (constant S4096x512 .f32 0x00000000#32) (ix2 p k)
      = ∑ l : Fin 256, a (ix2 p l) * b (ix2 l k) := by
  simp only [matmul]
  rw [Ideal.matmul_constant_zero_apply,
    ← Equiv.sum_comp (contrEquiv1 dot_S4096x256_S256x512_S4096x512_1_0_0_1_n_n 256 rfl rfl).symm]
  refine Finset.sum_congr rfl fun l _ => ?_
  have hk := contrEquiv1_symm_val dot_S4096x256_S256x512_S4096x512_1_0_0_1_n_n 256 rfl rfl l
  have el : dot_S4096x256_S256x512_S4096x512_1_0_0_1_n_n.lhsIdx (ix2 p k)
      ((contrEquiv1 dot_S4096x256_S256x512_S4096x512_1_0_0_1_n_n 256 rfl rfl).symm l) = ix2 p l :=
    funext fun a => Fin.ext (by
      match a with
      | ⟨0, _⟩ => exact lhs1_0 _ _
      | ⟨1, _⟩ => exact (lhs1_1 _ _).trans hk)
  have er : dot_S4096x256_S256x512_S4096x512_1_0_0_1_n_n.rhsIdx (ix2 p k)
      ((contrEquiv1 dot_S4096x256_S256x512_S4096x512_1_0_0_1_n_n 256 rfl rfl).symm l) = ix2 l k :=
    funext fun a => Fin.ext (by
      match a with
      | ⟨0, _⟩ => exact (rhs1_0 _ _).trans hk
      | ⟨1, _⟩ => exact rhs1_1 _ _)
  rw [el, er]

/-! ## The second contraction, [4096,512] × [512,256] over the shared axis of extent 512 -/

theorem lhs2_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl
theorem lhs2_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs2_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs2_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- Into a zero accumulator the second product is the plain sum over the shared axis. -/
theorem contract2_at (a : FVec Ideal S4096x512 .bf16) (b : FVec Ideal S512x256 .bf16) (p : Fin 4096) (j : Fin 256) :
    matmul dot_S4096x512_S512x256_S4096x256_1_0_0_1_n_n none a b (constant S4096x256 .f32 0x00000000#32) (ix2 p j)
      = ∑ k : Fin 512, a (ix2 p k) * b (ix2 k j) := by
  simp only [matmul]
  rw [Ideal.matmul_constant_zero_apply,
    ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 p j)
      ((contrEquiv1 dot_S4096x512_S512x256_S4096x256_1_0_0_1_n_n 512 rfl rfl).symm k) = ix2 p k :=
    funext fun a => Fin.ext (by
      match a with
      | ⟨0, _⟩ => exact lhs2_0 _ _
      | ⟨1, _⟩ => exact (lhs2_1 _ _).trans hk)
  have er : dot_S4096x512_S512x256_S4096x256_1_0_0_1_n_n.rhsIdx (ix2 p j)
      ((contrEquiv1 dot_S4096x512_S512x256_S4096x256_1_0_0_1_n_n 512 rfl rfl).symm k) = ix2 k j :=
    funext fun a => Fin.ext (by
      match a with
      | ⟨0, _⟩ => exact (rhs2_0 _ _).trans hk
      | ⟨1, _⟩ => exact rhs2_1 _ _)
  rw [el, er]

/-! ## The broadcasts: a [1,1] scalar and a [1,n] row, read anywhere -/

theorem scalar_to_4096x512 (s : S1x1.Idx → EReal) (h) (p : Fin 4096) (k : Fin 512) :
    broadcastTo S4096x512 s h (ix2 p k) = s (ix2 0 0) :=
  broadcastTo_apply s h (ix2 p k) (ix2 0 0) (fun a => by match a with | ⟨0, _⟩ => rfl | ⟨1, _⟩ => rfl)

theorem scalar_to_4096x256 (s : S1x1.Idx → EReal) (h) (p : Fin 4096) (j : Fin 256) :
    broadcastTo S4096x256 s h (ix2 p j) = s (ix2 0 0) :=
  broadcastTo_apply s h (ix2 p j) (ix2 0 0) (fun a => by match a with | ⟨0, _⟩ => rfl | ⟨1, _⟩ => rfl)

theorem row_to_4096x512 (b : S1x512.Idx → EReal) (h) (p : Fin 4096) (k : Fin 512) :
    broadcastTo S4096x512 b h (ix2 p k) = b (ix2 0 k) :=
  broadcastTo_apply b h (ix2 p k) (ix2 0 k) (fun a => by match a with | ⟨0, _⟩ => rfl | ⟨1, _⟩ => rfl)

theorem row_to_4096x256 (b : S1x256.Idx → EReal) (h) (p : Fin 4096) (j : Fin 256) :
    broadcastTo S4096x256 b h (ix2 p j) = b (ix2 0 j) :=
  broadcastTo_apply b h (ix2 p j) (ix2 0 j) (fun a => by match a with | ⟨0, _⟩ => rfl | ⟨1, _⟩ => rfl)

/-! ## The stored value -/

/-- The hidden activation the body forms between its two contractions, at row `p` and hidden unit `k`. -/
def hiddenAct (v0 : Vec Ideal S4096x256 .f32) (v2 : Vec Ideal S256x512 .bf16) (v5 : Vec Ideal S1x1 .f32) (v9 : Vec Ideal S1x512 .f32)
    (p : Fin 4096) (k : Fin 512) : EReal :=
  max ((∑ l : Fin 256, v0 (ix2 p l) * v2 (ix2 l k)) * v5 (ix2 0 0) + v9 (ix2 0 k)) 0

/-- The body's stored value at `[p, j]`. -/
theorem stored_at (v0 : Vec Ideal S4096x256 .f32) (v2 : Vec Ideal S256x512 .bf16) (v5 : Vec Ideal S1x1 .f32) (v9 : Vec Ideal S1x512 .f32)
    (v16 : Vec Ideal S512x256 .bf16) (v19 : Vec Ideal S1x1 .f32) (v23 : Vec Ideal S1x256 .f32) (p : Fin 4096) (j : Fin 256) :
    k0_pay1 (F := Ideal) v0 v2 v5 v9 v16 v19 v23 (ix2 p j)
      = (∑ k : Fin 512, hiddenAct v0 v2 v5 v9 p k * v16 (ix2 k j)) * v19 (ix2 0 0) + v23 (ix2 0 j) := by
  unfold k0_pay1
  simp only [shapeCast_self]
  show ((matmul (F := Ideal) dot_S4096x512_S512x256_S4096x256_1_0_0_1_n_n none _ v16 (constant S4096x256 .f32 0x00000000#32) (ix2 p j) : EReal)
      * (broadcastTo S4096x256 v19 _ (ix2 p j) : EReal) + (broadcastTo S4096x256 v23 _ (ix2 p j) : EReal) : EReal) = _
  rw [contract2_at, scalar_to_4096x256, row_to_4096x256]
  refine congrArg (fun z => z * v19 (ix2 0 0) + v23 (ix2 0 j)) (Finset.sum_congr rfl fun k _ => ?_)
  refine congrArg (· * v16 (ix2 k j)) ?_
  show (max ((matmul (F := Ideal) dot_S4096x256_S256x512_S4096x512_1_0_0_1_n_n none _ v2 (constant S4096x512 .f32 0x00000000#32) (ix2 p k) : EReal)
      * (broadcastTo S4096x512 v5 _ (ix2 p k) : EReal) + (broadcastTo S4096x512 v9 _ (ix2 p k) : EReal)) (Ideal.ofBits .f32 0x00000000#32) : EReal) = _
  rw [contract1_at, scalar_to_4096x512, row_to_4096x512, Ideal.ofBits_zero_f32]
  rfl

end Cert.KernelIdeal.BodyAtIndex

end
-- ==== Proof.OutputArray.lean ====
/-
  From blocks to the array. The grid has 64 points; point `t` is handed rows `4096·t … 4096·t + 4095` of `x` and the
  whole of each of the six small arrays (their block index is `(0, 0)` at every point), and writes rows
  `4096·t … 4096·t + 4095` of the result. A row of the result depends only on the same row of `x`, so what point `t`
  writes is block `t` of ONE whole-array function of the seven window arrays; and the 64 row blocks tile the
  262144 rows (row `r` is in block `r / 4096`), so the result array ends holding that function.
-/
import proofs.«422642_j8418135900727_3_alg».proof.Proof.Gen.KernelIdeal.Value
import proofs.«422642_j8418135900727_3_alg».proof.Proof.BodyAtIndex
import Idealize.ShloMosaic.Lib.Pipeline.Value

noncomputable section

namespace Cert.KernelIdeal.OutputArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.BodyAtIndex

variable (m : (ℓ : Loc nD τ sig) → Buf (Elt Ideal) ℓ) (ρ : Dev nD → PrngReg)

theorem hz : (![0, 0] : Fin 2 → Nat) = fun _ => 0 := funext fun a => by fin_cases a <;> rfl

/-! ## The whole-array function -/

/-- The result at `[r, j]` from the seven window arrays: input rows, transposed codes, scale and bias row of each layer. -/
def outAt (x : S262144x256.Idx → EReal) (q1t : S256x512.Idx → EReal) (s1 : S1x1.Idx → EReal) (b1 : S1x512.Idx → EReal)
    (q2t : S512x256.Idx → EReal) (s2 : S1x1.Idx → EReal) (b2 : S1x256.Idx → EReal) (r : Fin 262144) (j : Fin 256) : EReal :=
  (∑ k : Fin 512, max ((∑ l : Fin 256, x (ix2 r l) * q1t (ix2 l k)) * s1 (ix2 0 0) + b1 (ix2 0 k)) 0 * q2t (ix2 k j))
    * s2 (ix2 0 0) + b2 (ix2 0 j)

/-- The same as an array. -/
def outArr (x : S262144x256.Idx → EReal) (q1t : S256x512.Idx → EReal) (s1 : S1x1.Idx → EReal) (b1 : S1x512.Idx → EReal)
    (q2t : S512x256.Idx → EReal) (s2 : S1x1.Idx → EReal) (b2 : S1x256.Idx → EReal) : S262144x256.Idx → EReal :=
  fun i => outAt x q1t s1 b1 q2t s2 b2 ⟨(i 0).val, idx2_lt0 i⟩ ⟨(i 1).val, idx2_lt1 i⟩

/-! ## The printed index maps, decided over the grid -/

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem point_lt (t : Fin cfg0.N) : t.val < 64 := by
  have h := t.isLt
  have hN : cfg0.N = 64 := N_0
  omega

theorem row_lt (t : Fin cfg0.N) (p : Fin 4096) : 4096 * t.val + p.val < 262144 := by
  have := point_lt t; have := p.isLt; omega

/-! ## The input blocks -/

/-- Point `t`'s block of `x` is its rows `4096·t …`. -/
theorem xblk_apply (c : Dev nD) (t : Fin cfg0.N) (p : Fin 4096) (l : Fin 256) :
    (iblk m c 0 t : Vec Ideal S4096x256 .f32) (ix2 p l)
      = (V m c main_arg0 : S262144x256.Idx → EReal) (ix2 ⟨4096 * t.val + p.val, row_lt t p⟩ l) := by
  obtain ⟨⟨e0, e1⟩, -⟩ := idx_facts t
  unfold iblk
  rw [View.read_apply]
  show V m c main_arg0 _ = V m c main_arg0 _
  congr 1
  funext a
  apply Fin.ext
  match a with
  | ⟨0, _⟩ => show win0_0.index t 0 * 4096 + 1 * p.val = 4096 * t.val + p.val; rw [e0]; omega
  | ⟨1, _⟩ => show win0_0.index t 1 * 256 + 1 * l.val = l.val; rw [e1]; omega

/-- The other six windows hand every point their whole array. -/
theorem q1blk (c : Dev nD) (t : Fin cfg0.N) : (iblk m c 1 t : Vec Ideal S256x512 .bf16) = (V m c main_v19 : S256x512.Idx → EReal) := by
  obtain ⟨-, ⟨e0, e1⟩, -⟩ := idx_facts t
  funext y
  unfold iblk
  rw [View.read_apply]
  show V m c main_v19 _ = V m c main_v19 y
  congr 1
  funext a
  apply Fin.ext
  match a with
  | ⟨0, _⟩ => show win0_1.index t 0 * 256 + 1 * (y 0).val = (y 0).val; rw [e0]; omega
  | ⟨1, _⟩ => show win0_1.index t 1 * 512 + 1 * (y 1).val = (y 1).val; rw [e1]; omega

theorem s1blk (c : Dev nD) (t : Fin cfg0.N) : (iblk m c 2 t : Vec Ideal S1x1 .f32) = (V m c main_v22 : S1x1.Idx → EReal) := by
  obtain ⟨-, -, ⟨e0, e1⟩, -⟩ := idx_facts t
  funext y
  unfold iblk
  rw [View.read_apply]
  show V m c main_v22 _ = V m c main_v22 y
  congr 1
  funext a
  apply Fin.ext
  match a with
  | ⟨0, _⟩ => show win0_2.index t 0 * 1 + 1 * (y 0).val = (y 0).val; rw [e0]; omega
  | ⟨1, _⟩ => show win0_2.index t 1 * 1 + 1 * (y 1).val = (y 1).val; rw [e1]; omega

theorem b1blk (c : Dev nD) (t : Fin cfg0.N) : (iblk m c 3 t : Vec Ideal S1x512 .f32) = (V m c main_v24 : S1x512.Idx → EReal) := by
  obtain ⟨-, -, -, ⟨e0, e1⟩, -⟩ := idx_facts t
  funext y
  unfold iblk
  rw [View.read_apply]
  show V m c main_v24 _ = V m c main_v24 y
  congr 1
  funext a
  apply Fin.ext
  match a with
  | ⟨0, _⟩ => show win0_3.index t 0 * 1 + 1 * (y 0).val = (y 0).val; rw [e0]; omega
  | ⟨1, _⟩ => show win0_3.index t 1 * 512 + 1 * (y 1).val = (y 1).val; rw [e1]; omega

theorem q2blk (c : Dev nD) (t : Fin cfg0.N) : (iblk m c 4 t : Vec Ideal S512x256 .bf16) = (V m c main_v21 : S512x256.Idx → EReal) := by
  obtain ⟨-, -, -, -, ⟨e0, e1⟩, -⟩ := idx_facts t
  funext y
  unfold iblk
  rw [View.read_apply]
  show V m c main_v21 _ = V m c main_v21 y
  congr 1
  funext a
  apply Fin.ext
  match a with
  | ⟨0, _⟩ => show win0_4.index t 0 * 512 + 1 * (y 0).val = (y 0).val; rw [e0]; omega
  | ⟨1, _⟩ => show win0_4.index t 1 * 256 + 1 * (y 1).val = (y 1).val; rw [e1]; omega

theorem s2blk (c : Dev nD) (t : Fin cfg0.N) : (iblk m c 5 t : Vec Ideal S1x1 .f32) = (V m c main_v23 : S1x1.Idx → EReal) := by
  obtain ⟨-, -, -, -, -, ⟨e0, e1⟩, -⟩ := idx_facts t
  funext y
  unfold iblk
  rw [View.read_apply]
  show V m c main_v23 _ = V m c main_v23 y
  congr 1
  funext a
  apply Fin.ext
  match a with
  | ⟨0, _⟩ => show win0_5.index t 0 * 1 + 1 * (y 0).val = (y 0).val; rw [e0]; omega
  | ⟨1, _⟩ => show win0_5.index t 1 * 1 + 1 * (y 1).val = (y 1).val; rw [e1]; omega

theorem b2blk (c : Dev nD) (t : Fin cfg0.N) : (iblk m c 6 t : Vec Ideal S1x256 .f32) = (V m c main_v25 : S1x256.Idx → EReal) := by
  obtain ⟨-, -, -, -, -, -, ⟨e0, e1⟩, -⟩ := idx_facts t
  funext y
  unfold iblk
  rw [View.read_apply]
  show V m c main_v25 _ = V m c main_v25 y
  congr 1
  funext a
  apply Fin.ext
  match a with
  | ⟨0, _⟩ => show win0_6.index t 0 * 1 + 1 * (y 0).val = (y 0).val; rw [e0]; omega
  | ⟨1, _⟩ => show win0_6.index t 1 * 256 + 1 * (y 1).val = (y 1).val; rw [e1]; omega

/-! ## What a point writes back -/

/-- The body's stored value on a block of rows that starts at row `base` of `x` is the whole-array function there. -/
theorem point_eq (x0 : Vec Ideal S4096x256 .f32) (A0 : S262144x256.Idx → EReal) (q1t : S256x512.Idx → EReal) (s1 : S1x1.Idx → EReal)
    (b1 : S1x512.Idx → EReal) (q2t : S512x256.Idx → EReal) (s2 : S1x1.Idx → EReal) (b2 : S1x256.Idx → EReal)
    (base : Nat) (hb : base + 4096 ≤ 262144)
    (h0 : ∀ (p : Fin 4096) (l : Fin 256), x0 (ix2 p l) = A0 (ix2 ⟨base + p.val, by have := p.isLt; omega⟩ l))
    (y : S4096x256.Idx) (i : S262144x256.Idx) (hi0 : (i 0).val = base + (y 0).val) (hi1 : (i 1).val = (y 1).val) :
    k0_pay1 (F := Ideal) x0 q1t s1 b1 q2t s2 b2 y = outArr A0 q1t s1 b1 q2t s2 b2 i := by
  obtain ⟨p, j, rfl⟩ : ∃ (p : Fin 4096) (j : Fin 256), y = ix2 p j := ⟨y 0, y 1, eq_ix2 y⟩
  rw [stored_at]
  unfold outArr outAt hiddenAct
  have er : (⟨(i 0).val, idx2_lt0 i⟩ : Fin 262144) = ⟨base + p.val, by have := p.isLt; omega⟩ := Fin.ext hi0
  have ej : (⟨(i 1).val, idx2_lt1 i⟩ : Fin 256) = j := Fin.ext hi1
  rw [er, ej]
  simp only [h0]

/-- WHAT POINT `t` WRITES BACK is block `t` of the whole-array function of the window arrays as the region finds them. -/
theorem flushed_eq (c : Dev nD) (t : Fin cfg0.N) :
    (dats m 0 c).flushed 7 t = ((cfg0.win 7).blk t).view.read (Elt Ideal)
      (outArr (V m c main_arg0) (V m c main_v19) (V m c main_v22) (V m c main_v24) (V m c main_v21) (V m c main_v23) (V m c main_v25)) := by
  obtain ⟨-, -, -, -, -, -, -, ⟨e0, e1⟩⟩ := idx_facts t
  rw [flushed7]
  unfold out0_7
  rw [View.canon_unit_zero hz]
  simp only [View.ld_unit_zero (S := S4096x256) hz, View.ld_unit_zero (S := S256x512) hz, View.ld_unit_zero (S := S1x1) hz,
    View.ld_unit_zero (S := S1x512) hz, View.ld_unit_zero (S := S512x256) hz, View.ld_unit_zero (S := S1x256) hz]
  rw [q1blk, s1blk, b1blk, q2blk, s2blk, b2blk]
  funext y
  show k0_pay1 (F := Ideal) (iblk m c 0 t) (V m c main_v19) (V m c main_v22) (V m c main_v24) (V m c main_v21) (V m c main_v23) (V m c main_v25) y
    = outArr (V m c main_arg0) (V m c main_v19) (V m c main_v22) (V m c main_v24) (V m c main_v21) (V m c main_v23) (V m c main_v25)
        (((cfg0.win 7).blk t).view.emb y)
  refine point_eq (iblk m c 0 t) (V m c main_arg0) (V m c main_v19) (V m c main_v22) (V m c main_v24) (V m c main_v21)
    (V m c main_v23) (V m c main_v25) (4096 * t.val) (by have := point_lt t; omega) (fun p l => xblk_apply m c t p l) y _ ?_ ?_
  · show win0_7.index t 0 * 4096 + 1 * (y 0).val = 4096 * t.val + (y 0).val
    rw [e0]; omega
  · show win0_7.index t 1 * 256 + 1 * (y 1).val = (y 1).val
    rw [e1]; omega

/-! ## The cover, and the array after the run -/

/-- An index is in point `t`'s block iff each coordinate is in the block's range on its axis. -/
theorem mem_blk (t : Fin cfg0.N) (i : S262144x256.Idx) :
    i ∈ ((cfg0.win 7).blk t).view.set ↔ ∀ a : Fin 2, win0_7.index t a * S4096x256.size a ≤ (i a).val
      ∧ (i a).val < win0_7.index t a * S4096x256.size a + S4096x256.size a := by
  show i ∈ ((View.whole main_v26).slice (win0_7.rect t)).set ↔ _
  rw [View.set_slice_whole, Rect.mem_set_unit]
  exact Iff.rfl

/-- Every index of the result is in some point's block: row `r` is written by point `r / 4096`. -/
theorem cover (i : S262144x256.Idx) : ∃ t : Fin cfg0.N, (cfg0.win 7).flush t = true ∧ i ∈ ((cfg0.win 7).blk t).view.set := by
  have hi0 : (i 0).val < 262144 := idx2_lt0 i
  have hi1 : (i 1).val < 256 := idx2_lt1 i
  have hN : cfg0.N = 64 := N_0
  let t : Fin cfg0.N := ⟨(i 0).val / 4096, by rw [hN]; omega⟩
  obtain ⟨-, -, -, -, -, -, -, ⟨e0, e1⟩⟩ := idx_facts t
  have ht : t.val = (i 0).val / 4096 := rfl
  refine ⟨t, flush0_7 t, ?_⟩
  rw [mem_blk]
  intro a
  match a with
  | ⟨0, _⟩ =>
    show win0_7.index t 0 * 4096 ≤ (i 0).val ∧ (i 0).val < win0_7.index t 0 * 4096 + 4096
    rw [e0, ht]; omega
  | ⟨1, _⟩ =>
    show win0_7.index t 1 * 256 ≤ (i 1).val ∧ (i 1).val < win0_7.index t 1 * 256 + 256
    rw [e1]; omega

/-- THE ARRAY after the run is the whole-array function of the window arrays as the region finds them. -/
theorem final (c : Dev nD) : (dats m 0 c).arrAt 7 cfg0.N
    = outArr (V m c main_arg0) (V m c main_v19) (V m c main_v22) (V m c main_v24) (V m c main_v21) (V m c main_v23) (V m c main_v25) :=
  (dats m 0 c).arrAt_eq_of_cover 7 _ (fun t _ => flushed_eq m c t) cover

end Cert.KernelIdeal.OutputArray

end
-- ==== Proof.FoundArrays.lean ====
/-
  What the region finds in the six window arrays that host operations wrote before it. With
      s(W) = 1.47 · (Σ|W| / 131072) + 1e-8      (the per-tensor scale)
      q(W) = min 1 (max (−2) (roundeven (W / s(W))))   (the integer codes)
  the windows hold: q(W1)ᵀ and q(W2)ᵀ (the change of float format is the identity on the extended reals), s(W1) and
  s(W2) as [1,1] arrays, and the two biases as single rows. The scale and the codes are the very terms the reference
  computes, so they are written with the reference's own stage functions: both programs then speak of ONE scale and
  ONE code array per weight matrix.
-/
import proofs.«422642_j8418135900727_3_alg».proof.Proof.Gen.KernelIdeal.Frame
import proofs.«422642_j8418135900727_3_alg».proof.Proof.Gen.ReferenceIdeal.Read
import Idealize.ShloMosaic.Lib.StableHlo.Run

noncomputable section

namespace Cert.KernelIdeal.FoundArrays

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- The first layer's codes, transposed to [256, 512]. -/
theorem codes1 (c : Dev nD) :
    (V m c main_v19 : S256x512.Idx → EReal)
      = truncf (F := Ideal) .bf16 (transpose S256x512 [1, 0]
          (Cert.ReferenceIdeal.Read.val_main_v8 (F := Ideal) (m ((c : Thread nD τ).loc main_arg1))) transposes_S512x256_S256x512_1_0)
          bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The first layer's scale, as a [1,1] array. -/
theorem scale1 (c : Dev nD) :
    (V m c main_v22 : S1x1.Idx → EReal)
      = shapeCast S1x1 (Cert.ReferenceIdeal.Read.val_main_v4 (F := Ideal) (m ((c : Thread nD τ).loc main_arg1))) shapeCasts_S_S1x1 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The first bias, as one row. -/
theorem bias1 (c : Dev nD) :
    (V m c main_v24 : S1x512.Idx → EReal)
      = shapeCast S1x512 (m ((c : Thread nD τ).loc main_arg2) : S512.Idx → EReal) shapeCasts_S512_S1x512 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 2000000 in
/-- The second layer's codes, transposed to [512, 256]. -/
theorem codes2 (c : Dev nD) :
    (V m c main_v21 : S512x256.Idx → EReal)
      = truncf (F := Ideal) .bf16 (transpose S512x256 [1, 0]
          (Cert.ReferenceIdeal.Read.val_main_v27 (F := Ideal) (m ((c : Thread nD τ).loc main_arg3))) transposes_S256x512_S512x256_1_0)
          bitsLt_bf16_f32 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The second layer's scale, as a [1,1] array. -/
theorem scale2 (c : Dev nD) :
    (V m c main_v23 : S1x1.Idx → EReal)
      = shapeCast S1x1 (Cert.ReferenceIdeal.Read.val_main_v23 (F := Ideal) (m ((c : Thread nD τ).loc main_arg3))) shapeCasts_S_S1x1 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The second bias, as one row. -/
theorem bias2 (c : Dev nD) :
    (V m c main_v25 : S1x256.Idx → EReal)
      = shapeCast S1x256 (m ((c : Thread nD τ).loc main_arg4) : S256.Idx → EReal) shapeCasts_S256_S1x256 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Cert.KernelIdeal.FoundArrays

end
-- ==== Proof.QuantReal.lean ====
/-
  The per-tensor scale and the integer codes are real numbers whenever the weight matrix is.
  The scale is `1.47 · (0 + Σ|w|) / 131072 + 1e-8`: a finite sum of absolute values of reals, divided by a non-zero
  real, times and plus two finite float constants. The codes are `min 1 (max (−2) (roundeven (w / s)))`: whatever the
  rounded quotient is, clamping it between two reals leaves a real — so the codes need nothing of `w` at all.
-/
import proofs.«422642_j8418135900727_3_alg».proof.Proof.Gen.ReferenceIdeal.Read
import proofs.«422642_j8418135900727_3_alg».proof.Proof.LibERealCoe

noncomputable section

namespace Cert.ReferenceIdeal.QuantReal

open Idealize.ShloMosaic ERealCoe Cert.ReferenceIdeal Cert.ReferenceIdeal.Read

/-! ## The float constants -/

/-- A pattern whose exponent field is not all ones denotes a real (zero, a subnormal or a normal). -/
theorem isReal_ieee (e mm : Nat) {w : Nat} (b : BitVec w) (h : (b.extractLsb' mm e).toNat ≠ 2 ^ e - 1) :
    IsReal (Ideal.ieee e mm b) := by
  unfold Ideal.ieee
  simp only [h, if_false]
  split_ifs <;> exact isReal_coe _

/-- `1.47` as a float is a real. -/
theorem isReal_alpha : IsReal (Ideal.ofBits .f32 0x3FBC28F6#32) := by
  show IsReal (Ideal.ieee 8 23 (0x3FBC28F6#32 : BitVec 32))
  exact isReal_ieee 8 23 (0x3FBC28F6#32 : BitVec 32) (by decide)

/-- `1e-8` as a float is a real. -/
theorem isReal_eps : IsReal (Ideal.ofBits .f32 0x322BCC77#32) := by
  show IsReal (Ideal.ieee 8 23 (0x322BCC77#32 : BitVec 32))
  exact isReal_ieee 8 23 (0x322BCC77#32 : BitVec 32) (by decide)

/-- The element count `512 · 256` as a float is the real `131072`. -/
theorem ofBits_count : Ideal.ofBits .f32 0x48000000#32 = ((131072 : ℝ) : EReal) := by
  simp [Ideal.ofBits, Ideal.ieee, -EReal.coe_mul]; norm_num

/-! ## The scale -/

/-- The scale's formula over any finite family of reals is a real. -/
theorem isReal_scale {ι : Type} [Fintype ι] (w : ι → EReal) (hw : ∀ j, IsReal (w j)) :
    IsReal (Ideal.ofBits .f32 0x3FBC28F6#32
      * Ideal.div (Ideal.ofBits .f32 0x00000000#32 + ∑ j, max (w j) (-(w j))) (Ideal.ofBits .f32 0x48000000#32)
      + Ideal.ofBits .f32 0x322BCC77#32) := by
  rw [ofBits_count, Ideal.div_coe (by norm_num), Ideal.ofBits_zero_f32]
  exact (isReal_alpha.mul ((isReal_zero.add (IsReal.sum _ fun j => (hw j).max (hw j).neg)).mul (isReal_coe _))).add isReal_eps

/-- The first layer's scale is a real. -/
theorem scale1 (W : (⟨S512x256, .f32⟩ : BufTy).Contents (Elt Ideal)) (hW : ∀ j, IsReal (W j)) (i : S_.Idx) :
    IsReal (val_main_v4 (F := Ideal) W i) := by
  rw [val_main_v4_apply, val_main_v3_apply, val_main_cst_1_apply, val_main_v2_apply, val_main_v1_apply, val_main_cst_apply,
    val_main_cst_0_apply, val_main_cst_2_apply]
  simp only [val_main_v0_apply]
  exact isReal_scale W hW

/-- The second layer's scale is a real. -/
theorem scale2 (W : (⟨S256x512, .f32⟩ : BufTy).Contents (Elt Ideal)) (hW : ∀ j, IsReal (W j)) (i : S_.Idx) :
    IsReal (val_main_v23 (F := Ideal) W i) := by
  rw [val_main_v23_apply, val_main_v22_apply, val_main_cst_6_apply, val_main_v21_apply, val_main_v20_apply, val_main_cst_4_apply,
    val_main_cst_5_apply, val_main_cst_7_apply]
  simp only [val_main_v19_apply]
  exact isReal_scale W hW

/-! ## The codes -/

/-- The first layer's codes are reals, whatever the weights. -/
theorem codes1 (W : (⟨S512x256, .f32⟩ : BufTy).Contents (Elt Ideal)) (i : S512x256.Idx) :
    IsReal (val_main_v8 (F := Ideal) W i) := by
  rw [val_main_v8_apply, val_main_call1_v4_apply, val_main_call1_v3_apply, val_main_call1_v2_apply, val_main_call1_v1_apply,
    val_main_call1_v0_apply]
  exact isReal_clamp _ _ _

/-- The second layer's codes are reals, whatever the weights. -/
theorem codes2 (W : (⟨S256x512, .f32⟩ : BufTy).Contents (Elt Ideal)) (i : S256x512.Idx) :
    IsReal (val_main_v27 (F := Ideal) W i) := by
  rw [val_main_v27_apply, val_main_call4_v4_apply, val_main_call4_v3_apply, val_main_call4_v2_apply, val_main_call4_v1_apply,
    val_main_call4_v0_apply]
  exact isReal_clamp _ _ _

end Cert.ReferenceIdeal.QuantReal

end
-- ==== Proof.ReferenceAtIndex.lean ====
/-
  The reference, read at one output index `[r, j]`, on the extended reals:
      out[r, j] = Σₖ max ((Σₗ x[r, l] · ŵ1[k, l]) + b1[k]) 0 · ŵ2[j, k]  +  b2[j]
  where each quantized weight is kept in its straight-through form `ŵ = w + (s · q − w)` — the weight plus the
  quantization residual —, `s` the per-tensor scale and `q` the integer codes of that weight matrix. The two
  transposes only swap the coordinates at which `ŵ` is read, and each bias is broadcast along the rows.
-/
import proofs.«422642_j8418135900727_3_alg».proof.Proof.Gen.ReferenceIdeal.Read
import Idealize.ShloMosaic.Lib.ValueIdx

noncomputable section

namespace Cert.ReferenceIdeal.ReferenceAtIndex

open Idealize.ShloMosaic Idealize.ShloMosaic.ValueIdx Cert.ReferenceIdeal Cert.ReferenceIdeal.Read

/-- The straight-through form of the first layer's quantized weight at `[k, l]`. -/
def what1 (x1 : (⟨S512x256, .f32⟩ : BufTy).Contents (Elt Ideal)) (k : Fin 512) (l : Fin 256) : EReal :=
  x1 (ix2 k l) + (val_main_v4 (F := Ideal) x1 ix0 * val_main_v8 (F := Ideal) x1 (ix2 k l) - x1 (ix2 k l))

/-- The straight-through form of the second layer's quantized weight at `[j, k]`. -/
def what2 (x3 : (⟨S256x512, .f32⟩ : BufTy).Contents (Elt Ideal)) (j : Fin 256) (k : Fin 512) : EReal :=
  x3 (ix2 j k) + (val_main_v23 (F := Ideal) x3 ix0 * val_main_v27 (F := Ideal) x3 (ix2 j k) - x3 (ix2 j k))

theorem reference_at (x0 : (⟨S262144x256, .f32⟩ : BufTy).Contents (Elt Ideal)) (x1 : (⟨S512x256, .f32⟩ : BufTy).Contents (Elt Ideal))
    (x2 : (⟨S512, .f32⟩ : BufTy).Contents (Elt Ideal)) (x3 : (⟨S256x512, .f32⟩ : BufTy).Contents (Elt Ideal))
    (x4 : (⟨S256, .f32⟩ : BufTy).Contents (Elt Ideal)) (r : Fin 262144) (j : Fin 256) :
    val_main_v36 (F := Ideal) x0 x1 x2 x3 x4 (ix2 r j)
      = (∑ k : Fin 512, max ((∑ l : Fin 256, x0 (ix2 r l) * what1 x1 k l) + x2 (ix1 k)) 0 * what2 x3 j k) + x4 (ix1 j) := by
  have e1 : ∀ (k : Fin 512) (l : Fin 256), lidx_main_v14 (lidx_main_v33 (ix2 r j) k) l = ix2 r l :=
    fun k l => funext fun a => by match a with | ⟨0, _⟩ => rfl | ⟨1, _⟩ => rfl
  have e2 : ∀ (k : Fin 512) (l : Fin 256), idx_main_v13 (ridx_main_v14 (lidx_main_v33 (ix2 r j) k) l) = ix2 k l :=
    fun k l => funext fun a => by match a with | ⟨0, _⟩ => rfl | ⟨1, _⟩ => rfl
  have e3 : ∀ k : Fin 512, idx_main_v15 (idx_main_v16 (lidx_main_v33 (ix2 r j) k)) = ix1 k :=
    fun k => funext fun a => by match a with | ⟨0, _⟩ => rfl
  have e4 : ∀ k : Fin 512, idx_main_v32 (ridx_main_v33 (ix2 r j) k) = ix2 j k :=
    fun k => funext fun a => by match a with | ⟨0, _⟩ => rfl | ⟨1, _⟩ => rfl
  have e5 : idx_main_v34 (idx_main_v35 (ix2 r j)) = ix1 j :=
    funext fun a => by match a with | ⟨0, _⟩ => rfl
  simp only [val_main_v36_apply, val_main_v35_apply, val_main_v34_apply, val_main_v33_apply, val_main_v32_apply,
    val_main_v31_apply, val_main_v30_apply, val_main_v29_apply, val_main_v28_apply, val_main_v18_apply,
    val_main_call2_v0_apply, val_main_call2_cst_apply, val_main_v17_apply, val_main_v16_apply, val_main_v15_apply,
    val_main_v14_apply, val_main_v13_apply, val_main_v12_apply, val_main_v11_apply, val_main_v10_apply, val_main_v9_apply,
    e1, e2, e3, e4, e5, Ideal.addf_def, Ideal.subf_def, Ideal.mulf_def, Ideal.maximumf_def, Ideal.ofBits_def,
    Ideal.ofBits_zero_f32]
  rfl

end Cert.ReferenceIdeal.ReferenceAtIndex

end
-- ==== Proof.ScaleAfterSum.lean ====
/-
  The algebra that joins the two programs. A two-layer perceptron whose weights are quantized to `s · q` (a scale
  times a small integer code) can apply the scale AFTER each contraction, `(∑ x · q) · s`, or bake it into the weight
  first, `∑ x · (w + (s · q − w))` (the straight-through form: the weight plus the quantization residual). Over the
  reals these agree: `w + (s · q − w) = s · q`, and a common factor leaves a finite sum. On the extended reals both
  steps can fail at an infinity, so every quantity is assumed to be a real; the second bias, which only rides along,
  may be anything.
-/
import proofs.«422642_j8418135900727_3_alg».proof.Proof.LibERealCoe
import Mathlib.Tactic.Ring

namespace ScaleAfterSum

open ERealCoe

/-- One layer, over the reals: the residual form of the quantized weight contracts to the scaled contraction. -/
theorem layer_real {L : Type*} [Fintype L] (x w q : L → ℝ) (s : ℝ) :
    ∑ l, x l * (w l + (s * q l - w l)) = (∑ l, x l * q l) * s := by
  rw [Finset.sum_mul]
  exact Finset.sum_congr rfl fun l _ => by ring

/-- One layer on the extended reals, all entries real: the same identity, and the value is a real. -/
theorem layer {L : Type*} [Fintype L] (x w q : L → EReal) (s : EReal)
    (hx : ∀ l, IsReal (x l)) (hw : ∀ l, IsReal (w l)) (hq : ∀ l, IsReal (q l)) (hs : IsReal s) :
    ∑ l, x l * (w l + (s * q l - w l)) = (∑ l, x l * q l) * s := by
  choose xr hxr using hx
  choose wr hwr using hw
  choose qr hqr using hq
  obtain ⟨sr, rfl⟩ := hs
  simp only [hxr, hwr, hqr]
  simp only [← EReal.coe_mul, ← EReal.coe_sub, ← EReal.coe_add, ← coe_sum]
  exact congrArg _ (layer_real xr wr qr sr)

/-- The contraction of reals by reals is a real. -/
theorem isReal_dot {L : Type*} [Fintype L] (x q : L → EReal) (hx : ∀ l, IsReal (x l)) (hq : ∀ l, IsReal (q l)) :
    IsReal (∑ l, x l * q l) :=
  IsReal.sum _ fun l => (hx l).mul (hq l)

/-- Both layers. The hidden activation `max (… + b₁) 0` is the same real on both sides by `layer`; the second
    contraction is `layer` again with the hidden activation in the place of the input. -/
theorem two_layers {L K : Type*} [Fintype L] [Fintype K]
    (x : L → EReal) (w1 q1 : K → L → EReal) (s1 : EReal) (b1 : K → EReal)
    (w2 q2 : K → EReal) (s2 : EReal) (b2 : EReal)
    (hx : ∀ l, IsReal (x l)) (hw1 : ∀ k l, IsReal (w1 k l)) (hq1 : ∀ k l, IsReal (q1 k l)) (hs1 : IsReal s1)
    (hb1 : ∀ k, IsReal (b1 k)) (hw2 : ∀ k, IsReal (w2 k)) (hq2 : ∀ k, IsReal (q2 k)) (hs2 : IsReal s2) :
    (∑ k, max ((∑ l, x l * q1 k l) * s1 + b1 k) 0 * q2 k) * s2 + b2
      = (∑ k, max ((∑ l, x l * (w1 k l + (s1 * q1 k l - w1 k l))) + b1 k) 0 * (w2 k + (s2 * q2 k - w2 k))) + b2 := by
  have hlayer1 : ∀ k, ∑ l, x l * (w1 k l + (s1 * q1 k l - w1 k l)) = (∑ l, x l * q1 k l) * s1 :=
    fun k => layer x (w1 k) (q1 k) s1 hx (hw1 k) (hq1 k) hs1
  simp only [hlayer1]
  have hh : ∀ k, IsReal (max ((∑ l, x l * q1 k l) * s1 + b1 k) 0) :=
    fun k => (((isReal_dot x (q1 k) hx (hq1 k)).mul hs1).add (hb1 k)).max isReal_zero
  rw [layer (fun k => max ((∑ l, x l * q1 k l) * s1 + b1 k) 0) w2 q2 s2 hh hw2 hq2 hs2]

end ScaleAfterSum
-- ==== Proof.Bridge.lean ====
/-
  The two programs compute one array. The kernel's result at `[r, j]`, with the window arrays read back to the
  arguments, is
      (Σₖ max ((Σₗ x[r, l] · q1[k, l]) · s1 + b1[k]) 0 · q2[j, k]) · s2 + b2[j],
  the scale applied after each contraction; the reference's is the same with each `q · s` replaced by the
  straight-through weight `w + (s · q − w)` inside the contraction. With every argument entry a real, so are the
  scales and the codes, and the two agree.
-/
import proofs.«422642_j8418135900727_3_alg».proof.Proof.OutputArray
import proofs.«422642_j8418135900727_3_alg».proof.Proof.FoundArrays
import proofs.«422642_j8418135900727_3_alg».proof.Proof.QuantReal
import proofs.«422642_j8418135900727_3_alg».proof.Proof.ReferenceAtIndex
import proofs.«422642_j8418135900727_3_alg».proof.Proof.ScaleAfterSum

noncomputable section

namespace Cert.Bridge

open Idealize.ShloMosaic Idealize.ShloMosaic.TcCoe Idealize.SL.Sem Idealize.ShloMosaic.ValueIdx ERealCoe
open Cert.KernelIdeal Cert.KernelIdeal.Gen

variable (m : (ℓ : Loc nD τ sig) → Buf (Elt Ideal) ℓ)

/-! ## The argument arrays and the quantities both programs derive from them -/

abbrev X (c : Dev nD) : S262144x256.Idx → EReal := m ((c : Thread nD τ).loc main_arg0)
abbrev W1 (c : Dev nD) : S512x256.Idx → EReal := m ((c : Thread nD τ).loc main_arg1)
abbrev B1 (c : Dev nD) : S512.Idx → EReal := m ((c : Thread nD τ).loc main_arg2)
abbrev W2 (c : Dev nD) : S256x512.Idx → EReal := m ((c : Thread nD τ).loc main_arg3)
abbrev B2 (c : Dev nD) : S256.Idx → EReal := m ((c : Thread nD τ).loc main_arg4)

/-- The first layer's integer codes and scale, the second layer's. -/
abbrev Q1 (c : Dev nD) : S512x256.Idx → EReal := Cert.ReferenceIdeal.Read.val_main_v8 (F := Ideal) (W1 m c)
abbrev σ1 (c : Dev nD) : EReal := Cert.ReferenceIdeal.Read.val_main_v4 (F := Ideal) (W1 m c) ix0
abbrev Q2 (c : Dev nD) : S256x512.Idx → EReal := Cert.ReferenceIdeal.Read.val_main_v27 (F := Ideal) (W2 m c)
abbrev σ2 (c : Dev nD) : EReal := Cert.ReferenceIdeal.Read.val_main_v23 (F := Ideal) (W2 m c) ix0

/-! ## The window arrays, read at an index -/

theorem codes1_at (c : Dev nD) (l : Fin 256) (k : Fin 512) :
    (V m c main_v19 : S256x512.Idx → EReal) (ix2 l k) = Q1 m c (ix2 k l) := by
  rw [FoundArrays.codes1]
  show transpose S256x512 [1, 0] (Q1 m c) _ (ix2 l k) = _
  exact transpose_apply [1, 0] _ _ (ix2 l k) (ix2 k l) (fun b => match b with | ⟨0, _⟩ => rfl | ⟨1, _⟩ => rfl)

theorem codes2_at (c : Dev nD) (k : Fin 512) (j : Fin 256) :
    (V m c main_v21 : S512x256.Idx → EReal) (ix2 k j) = Q2 m c (ix2 j k) := by
  rw [FoundArrays.codes2]
  show transpose S512x256 [1, 0] (Q2 m c) _ (ix2 k j) = _
  exact transpose_apply [1, 0] _ _ (ix2 k j) (ix2 j k) (fun b => match b with | ⟨0, _⟩ => rfl | ⟨1, _⟩ => rfl)

theorem scale1_at (c : Dev nD) : (V m c main_v22 : S1x1.Idx → EReal) (ix2 0 0) = σ1 m c := by
  rw [FoundArrays.scale1]
  unfold shapeCast
  exact congrArg _ (funext fun a => a.elim0)

theorem scale2_at (c : Dev nD) : (V m c main_v23 : S1x1.Idx → EReal) (ix2 0 0) = σ2 m c := by
  rw [FoundArrays.scale2]
  unfold shapeCast
  exact congrArg _ (funext fun a => a.elim0)

theorem bias1_at (c : Dev nD) (k : Fin 512) : (V m c main_v24 : S1x512.Idx → EReal) (ix2 0 k) = B1 m c (ix1 k) := by
  rw [FoundArrays.bias1]
  refine (shapeCast_addUnit_apply ![512] _ _ (ix2 0 k)).trans (congrArg _ (funext fun a => ?_))
  match a with | ⟨0, _⟩ => rfl

theorem bias2_at (c : Dev nD) (j : Fin 256) : (V m c main_v25 : S1x256.Idx → EReal) (ix2 0 j) = B2 m c (ix1 j) := by
  rw [FoundArrays.bias2]
  refine (shapeCast_addUnit_apply ![256] _ _ (ix2 0 j)).trans (congrArg _ (funext fun a => ?_))
  match a with | ⟨0, _⟩ => rfl

/-! ## The kernel's result at an index, over the arguments -/

theorem kernel_at (c : Dev nD) (r : Fin 262144) (j : Fin 256) :
    ((dats m 0 c).arrAt 7 cfg0.N : S262144x256.Idx → EReal) (ix2 r j)
      = (∑ k : Fin 512, max ((∑ l : Fin 256, X m c (ix2 r l) * Q1 m c (ix2 k l)) * σ1 m c + B1 m c (ix1 k)) 0 * Q2 m c (ix2 j k))
          * σ2 m c + B2 m c (ix1 j) := by
  rw [OutputArray.final]
  show OutputArray.outAt (V m c main_arg0) (V m c main_v19) (V m c main_v22) (V m c main_v24) (V m c main_v21) (V m c main_v23)
    (V m c main_v25) r j = _
  unfold OutputArray.outAt
  refine congrArg₂ (· + ·) (congrArg₂ (· * ·) (Finset.sum_congr rfl fun k _ => ?_) (scale2_at m c)) (bias2_at m c j)
  refine congrArg₂ (· * ·) (congrArg (max · 0) (congrArg₂ (· + ·)
    (congrArg₂ (· * ·) (Finset.sum_congr rfl fun l _ => ?_) (scale1_at m c)) (bias1_at m c k))) (codes2_at m c k j)
  exact congrArg₂ (· * ·) (congrFun (V_main_arg0 m c) _) (codes1_at m c l k)

/-! ## The reference's array is the kernel's -/

theorem reference_eq_kernel (c : Dev nD) (h0 : ∀ i, IsReal (X m c i)) (h1 : ∀ i, IsReal (W1 m c i)) (h2 : ∀ i, IsReal (B1 m c i))
    (h3 : ∀ i, IsReal (W2 m c i)) :
    Cert.ReferenceIdeal.Read.val_main_v36 (F := Ideal) (X m c) (W1 m c) (B1 m c) (W2 m c) (B2 m c)
      = ((dats m 0 c).arrAt 7 cfg0.N : S262144x256.Idx → EReal) := by
  funext i
  obtain ⟨r, j, rfl⟩ : ∃ (r : Fin 262144) (j : Fin 256), i = ix2 r j := ⟨i 0, i 1, eq_ix2 i⟩
  rw [Cert.ReferenceIdeal.ReferenceAtIndex.reference_at, kernel_at]
  unfold Cert.ReferenceIdeal.ReferenceAtIndex.what1 Cert.ReferenceIdeal.ReferenceAtIndex.what2
  exact (ScaleAfterSum.two_layers (fun l => X m c (ix2 r l)) (fun k l => W1 m c (ix2 k l)) (fun k l => Q1 m c (ix2 k l)) (σ1 m c)
    (fun k => B1 m c (ix1 k)) (fun k => W2 m c (ix2 j k)) (fun k => Q2 m c (ix2 j k)) (σ2 m c) (B2 m c (ix1 j))
    (fun l => h0 _) (fun k l => h1 _) (fun k l => Cert.ReferenceIdeal.QuantReal.codes1 _ _)
    (Cert.ReferenceIdeal.QuantReal.scale1 _ h1 _) (fun k => h2 _) (fun k => h3 _)
    (fun k => Cert.ReferenceIdeal.QuantReal.codes2 _ _) (Cert.ReferenceIdeal.QuantReal.scale2 _ h3 _)).symm

end Cert.Bridge

end
-- ==== Proof.lean ====
/-
  A two-layer perceptron with 2-bit quantized weights, `relu(x · Ŵ1ᵀ + b1) · Ŵ2ᵀ + b2` over 262144 rows, where each
  weight matrix is quantized per tensor: the scale `s = 1.47 · mean|W| + 1e-8` and the integer codes
  `q = clip(round(W / s), −2, 1)`.

  The kernel keeps scale and codes apart: the host computes `s` and `q` once, and the kernel, one block of 4096 rows
  per grid point, forms `(x · qᵀ) · s + b` for each layer with the rectifier between them. The reference multiplies
  them back into a weight in straight-through form, `Ŵ = W + (s · q − W)`, and contracts with that.

  On the extended reals the two are equal once every input entry is a real number, which is what the precondition
  says: then `s` and `q` are reals, `W + (s · q − W) = s · q`, and the common factor `s` leaves each finite sum.
  At an infinity both steps can fail, which is why the precondition is used.

  The five claims: the kernel's frames are the generated ones; the reference's frame is its generated run with the
  result dropped; the idealization rewrote nothing; and the two idealized programs end at one array.
-/
import proofs.«422642_j8418135900727_3_alg».proof.Defs
import proofs.«422642_j8418135900727_3_alg».proof.Proof.Gen.Kernel
import proofs.«422642_j8418135900727_3_alg».proof.Proof.Gen.Kernel.Skeleton
import proofs.«422642_j8418135900727_3_alg».proof.Proof.Gen.Kernel.Launch
import proofs.«422642_j8418135900727_3_alg».proof.Proof.Gen.Kernel.Points
import proofs.«422642_j8418135900727_3_alg».proof.Proof.Gen.Kernel.Frame
import proofs.«422642_j8418135900727_3_alg».proof.Proof.Gen.KernelIdeal
import proofs.«422642_j8418135900727_3_alg».proof.Proof.Gen.KernelIdeal.Skeleton
import proofs.«422642_j8418135900727_3_alg».proof.Proof.Gen.KernelIdeal.Launch
import proofs.«422642_j8418135900727_3_alg».proof.Proof.Gen.KernelIdeal.Points
import proofs.«422642_j8418135900727_3_alg».proof.Proof.Gen.KernelIdeal.Frame
import proofs.«422642_j8418135900727_3_alg».proof.Proof.Gen.ReferenceIdeal
import proofs.«422642_j8418135900727_3_alg».proof.Proof.Gen.Pre_finite_inputs
import proofs.«422642_j8418135900727_3_alg».proof.Proof.Gen.KernelIdeal.Value
import proofs.«422642_j8418135900727_3_alg».proof.Proof.Gen.ReferenceIdeal.Run
import proofs.«422642_j8418135900727_3_alg».proof.Proof.Gen.ReferenceIdeal.Read
import proofs.«422642_j8418135900727_3_alg».proof.Proof.FiniteInputs
import proofs.«422642_j8418135900727_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the array the kernel's 64 row blocks assemble: the kernel by its run read
    block by block, the reference because, every argument entry being a real, its straight-through weights
    contract to the kernel's scaled contractions. -/
theorem algebraic : Cert.algebraic_KernelIdeal_ReferenceIdeal := by
  intro m ρ m' ρ' hpre hagree
  refine ⟨fun c => (Cert.KernelIdeal.Gen.dats m 0 c).arrAt 7 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, -⟩ := Cert.FiniteInputs.real_of_pre _ _ _ _ _ (hpre c)
  rw [(hagree c).1, (hagree c).2.1, (hagree c).2.2.1, (hagree c).2.2.2.1, (hagree c).2.2.2.2]
  exact (Cert.ReferenceIdeal.Read.val_main_v36_eq _ _ _ _ _).trans (Cert.Bridge.reference_eq_kernel m c h0 h1 h2 h3)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
